-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S1x4096 : Shape := ⟨2, ![1, 4096]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S512x128x128 .f32) (main_arg1 : FVec F S1x4096 .f32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  main_v8
-- ==== Kernel.lean ====
abbrev S512x128x128 : Shape := ⟨3, ![512, 128, 128]⟩
abbrev S1x4096 : Shape := ⟨2, ![1, 4096]⟩
abbrev S65536x128 : Shape := ⟨2, ![65536, 128]⟩
abbrev S4096 : Shape := ⟨1, ![4096]⟩
abbrev S_ : Shape := ⟨0, ![]⟩
abbrev S128 : Shape := ⟨1, ![128]⟩
abbrev S128x1 : Shape := ⟨2, ![128, 1]⟩
abbrev S128x4096 : Shape := ⟨2, ![128, 4096]⟩
abbrev S65536x4096 : Shape := ⟨2, ![65536, 4096]⟩
abbrev S512x128 : Shape := ⟨2, ![512, 128]⟩
abbrev S512x4096 : Shape := ⟨2, ![512, 4096]⟩
abbrev S512x128x4096 : Shape := ⟨3, ![512, 128, 4096]⟩

abbrev nBuf : Space → Nat
  | .hbm => 34
  | .vmem => 5
  | .smem => 0
  | _ => 0

abbrev bufTy : (tb : Table) → Fin (tcTables nBuf tb) → BufTy
  | .hbm, ⟨0, _⟩ => ⟨S512x128x128, .f32⟩
  | .hbm, ⟨1, _⟩ => ⟨S1x4096, .f32⟩
  | .hbm, ⟨2, _⟩ => ⟨S65536x128, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S128, .i32⟩
  | .hbm, ⟨23, _⟩ => ⟨S128x1, .i32⟩
  | .hbm, ⟨24, _⟩ => ⟨S1x4096, .i32⟩
  | .hbm, ⟨25, _⟩ => ⟨S128x4096, .i32⟩
  | .hbm, ⟨26, _⟩ => ⟨S128x4096, .i32⟩
  | .hbm, ⟨27, _⟩ => ⟨S128x4096, .i1⟩
  | .hbm, ⟨28, _⟩ => ⟨S128x4096, .f32⟩
  | .hbm, ⟨29, _⟩ => ⟨S128x4096, .f32⟩
  | .hbm, ⟨30, _⟩ => ⟨S128x4096, .f32⟩
  | .hbm, ⟨31, _⟩ => ⟨S128x4096, .bf16⟩
  | .hbm, ⟨32, _⟩ => ⟨S65536x4096, .f32⟩
  | .hbm, ⟨33, _⟩ => ⟨S512x128x4096, .f32⟩
  | .local _ .vmem, ⟨0, _⟩ => ⟨S512x128, .f32⟩
  | .local _ .vmem, ⟨1, _⟩ => ⟨S512x128, .f32⟩
  | .local _ .vmem, ⟨2, _⟩ => ⟨S128x4096, .bf16⟩
  | .local _ .vmem, ⟨3, _⟩ => ⟨S512x4096, .f32⟩
  | .local _ .vmem, ⟨4, _⟩ => ⟨S512x4096, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x128x128_S65536x128 : S512x128x128.ShapeCasts S65536x128
  bcast_S_S4096 : S_.BroadcastsInDim S4096 (![] : Fin 0 → Fin S4096.rank)
  bcast_S128_S128x1_0 : S128.BroadcastsInDim S128x1 (![0] : Fin 1 → Fin S128x1.rank)
  bcast_S4096_S1x4096_1 : S4096.BroadcastsInDim S1x4096 (![1] : Fin 1 → Fin S1x4096.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S65536x4096_S512x128x4096 : S65536x4096.ShapeCasts S512x128x4096
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S65536x4096.size a
  hwx0_2 : ∀ i : grid0.Coords, EltTy.bits .f32 = 32 ∨ (Rect.block (s := S65536x4096) S512x4096.size (cc0_transform_2 i) (hinb0_2 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128x128 : Shape := ⟨3, ![512, 128, 128]⟩
abbrev S1x4096 : Shape := ⟨2, ![1, 4096]⟩
abbrev S128x32 : Shape := ⟨2, ![128, 32]⟩
abbrev S512x128x128x1 : Shape := ⟨4, ![512, 128, 128, 1]⟩
abbrev S1x1x128x32 : Shape := ⟨4, ![1, 1, 128, 32]⟩
abbrev S512x128x128x32 : Shape := ⟨4, ![512, 128, 128, 32]⟩
abbrev S512x128x4096 : Shape := ⟨3, ![512, 128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S1x4096, .f32⟩
  | .hbm, ⟨2, _⟩ => ⟨S128x32, .f32⟩
  | .hbm, ⟨3, _⟩ => ⟨S512x128x128x1, .f32⟩
  | .hbm, ⟨4, _⟩ => ⟨S1x1x128x32, .f32⟩
  | .hbm, ⟨5, _⟩ => ⟨S512x128x128x32, .f32⟩
  | .hbm, ⟨6, _⟩ => ⟨S512x128x128x32, .f32⟩
  | .hbm, ⟨7, _⟩ => ⟨S512x128x128x32, .f32⟩
  | .hbm, ⟨8, _⟩ => ⟨S512x128x4096, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S1x4096_S128x32 : S1x4096.ShapeCasts S128x32
  bcast_S512x128x128_S512x128x128x1_0_1_2 : S512x128x128.BroadcastsInDim S512x128x128x1 (![0, 1, 2] : Fin 3 → Fin S512x128x128x1.rank)
  bcast_S128x32_S1x1x128x32_2_3 : S128x32.BroadcastsInDim S1x1x128x32 (![2, 3] : Fin 2 → Fin S1x1x128x32.rank)
  bcast_S512x128x128x1_S512x128x128x32_0_1_2_3 : S512x128x128x1.BroadcastsInDim S512x128x128x32 (![0, 1, 2, 3] : Fin 4 → Fin S512x128x128x32.rank)
  bcast_S1x1x128x32_S512x128x128x32_0_1_2_3 : S1x1x128x32.BroadcastsInDim S512x128x128x32 (![0, 1, 2, 3] : Fin 4 → Fin S512x128x128x32.rank)
  shapeCasts_S512x128x128x32_S512x128x4096 : S512x128x128x32.ShapeCasts S512x128x4096

variable [Facts₀]

class Facts : Prop extends Facts₀ where

variable [Facts]
-- ==== Proof.FloorDiv.lean ====
/-
  Floor division by 32 on small nonnegative 32-bit words, and the one-hot comparison that follows it.

  jnp lowers floor_divide (x, y) on signed integers to: the truncating quotient q = x / y, less one exactly when
  the signs of x and y differ and the remainder x mod y is not zero. For 0 ≤ j < 4096 and y = 32 the signs never
  differ on a nonzero remainder (j = 0 has sign 0 but remainder 0; every other j has sign 1 = sign 32), so the
  result is the truncating quotient, which for nonnegative words is the natural-number quotient j / 32.
  Both facts are finite checks over the words involved.
-/
import Idealize.ShloMosaic.PureOps

namespace Cert.Lib.FloorDiv

open Idealize.ShloMosaic

/-- The sign of a word: 0, -1 or 1. -/
def sgn (x : BitVec 32) : BitVec 32 := if x = 0 then 0 else if x.msb then -1 else 1

/-- Floor division as lowered: the truncating quotient, less one when the signs differ and the remainder is not zero. -/
def floorDiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- For 0 ≤ j < 4096, floor division of the word j by 32 is the word j / 32. -/
theorem floorDiv_32 : ∀ j : Fin 4096, floorDiv (BitVec.ofNat 32 j.val) 32#32 = BitVec.ofNat 32 (j.val / 32) := by
  decide +kernel

/-- Two words below 128 compare equal exactly when the numbers are equal: the comparison bit, as a number, is 1 or 0. -/
theorem cmp_eq_toNat : ∀ a b : Fin 128,
    (IntOp.cmpi .eq (BitVec.ofNat 32 a.val) (BitVec.ofNat 32 b.val)).toNat = if a = b then 1 else 0 := by
  decide +kernel

end Cert.Lib.FloorDiv
-- ==== Proof.Spec.lean ====
/-
  The result both programs compute, as one function of the arguments.

  With x : [512, 128, 128] and w : [1, 4096], column j of the result belongs to channel j / 32 (32 columns per
  channel, 128 channels), and
      y (b, t, j) = x (b, t, j / 32) · w (0, j).
-/
import Idealize.ShloMosaic.PureOps.Ideal
import Idealize.ShloMosaic.Lib.ValueIdx

noncomputable section

namespace Cert.Spec

open Idealize.ShloMosaic Idealize.ShloMosaic.ValueIdx

/-- The channel of column j: j / 32. -/
def chan (j : Fin 4096) : Fin 128 := ⟨j.val / 32, by have := j.isLt; omega⟩

theorem chan_val (j : Fin 4096) : (chan j).val = j.val / 32 := rfl

/-- The result: y (b, t, j) = x (b, t, j / 32) · w (0, j). -/
def G (x : (⟨3, ![512, 128, 128]⟩ : Shape).Idx → EReal) (w : (⟨2, ![1, 4096]⟩ : Shape).Idx → EReal) :
    (⟨3, ![512, 128, 4096]⟩ : Shape).Idx → EReal :=
  fun i => x (ix3 (⟨(i 0).val, (i 0).isLt⟩ : Fin 512) (⟨(i 1).val, (i 1).isLt⟩ : Fin 128) (chan ⟨(i 2).val, (i 2).isLt⟩))
    * w (ix2 (0 : Fin 1) (⟨(i 2).val, (i 2).isLt⟩ : Fin 4096))

/-- The result read at coordinates. -/
theorem G_apply (x : (⟨3, ![512, 128, 128]⟩ : Shape).Idx → EReal) (w : (⟨2, ![1, 4096]⟩ : Shape).Idx → EReal)
    (b : Fin 512) (t : Fin 128) (j : Fin 4096) :
    G x w (ix3 b t j) = x (ix3 b t (chan j)) * w (ix2 (0 : Fin 1) j) := rfl

end Cert.Spec

end
-- ==== Proof.HostPrefix.lean ====
/-
  What the region finds in its two input arrays.

  Before the region the host writes two arrays from the arguments x : [512, 128, 128] and w : [1, 4096].
  The first is x flattened to [65536, 128]: row n = 128 b + t holds x (b, t, ·).
  The second is the expansion matrix E : [128, 4096]. The host numbers the columns j = 0 … 4095, floor-divides them
  by 32 to get the channel j / 32 that column j belongs to, compares that row of channels with the column of row
  numbers k = 0 … 127, turns the comparison bit into the float 1 or 0, and multiplies by w (0, j):
      E (k, j) = (1 if k = j / 32 else 0) · w (0, j).
  Its change of float format is the identity on the extended reals.
-/
import proofs.«175144_j54709293416679_1_alg».proof.Proof.Gen.KernelIdeal.Frame
import proofs.«175144_j54709293416679_1_alg».proof.Proof.FloorDiv
import proofs.«175144_j54709293416679_1_alg».proof.Proof.Spec
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The channel of each column: the column numbers 0 … 4095 floor-divided by 32 (the truncating quotient, less one
    where the signs differ and the remainder is not zero). -/
def chanOfCol : IVec S4096 32 :=
  select
    (andi
      (cmpi .ne (signi (iotaInDim S4096 32 0))
        (broadcastInDim S4096 ![] bcast_S_S4096 (signi (id (constantI S_ 32 32#32)))))
      (cmpi .ne (Host.remsi (iotaInDim S4096 32 0) (broadcastInDim S4096 ![] bcast_S_S4096 (id (constantI S_ 32 32#32))))
        (broadcastInDim S4096 ![] bcast_S_S4096 (constantI S_ 32 0#32))))
    (subi (Host.divsi (iotaInDim S4096 32 0) (broadcastInDim S4096 ![] bcast_S_S4096 (id (constantI S_ 32 32#32))))
      (broadcastInDim S4096 ![] bcast_S_S4096 (constantI S_ 32 1#32)))
    (Host.divsi (iotaInDim S4096 32 0) (broadcastInDim S4096 ![] bcast_S_S4096 (id (constantI S_ 32 32#32))))

/-- The comparison of the row numbers 0 … 127 (down the rows) with the columns' channels (along the columns). -/
def hitBit : IVec S128x4096 1 :=
  cmpi .eq
    (broadcastInDim S128x4096 ![0, 1] bcast_S128x1_S128x4096_0_1 (broadcastInDim S128x1 ![0] bcast_S128_S128x1_0 (iotaInDim S128 32 0)))
    (broadcastInDim S128x4096 ![0, 1] bcast_S1x4096_S128x4096_0_1 (broadcastInDim S1x4096 ![1] bcast_S4096_S1x4096_1 chanOfCol))

/-- The expansion matrix: the comparison bit as a float, times w broadcast down the rows, in the narrower format. -/
def expansion (w : FVec F S1x4096 .f32) : FVec F S128x4096 .bf16 :=
  truncf .bf16 (mulf (uitofp .f32 hitBit) (broadcastInDim S128x4096 ![0, 1] bcast_S1x4096_S128x4096_0_1 w)) bitsLt_bf16_f32

section Entry

variable (m : (ℓ : Loc nD τ sig) → Buf (Elt F) ℓ)

/-- The region's first input array is the argument x, flattened. -/
theorem V_main_v0 (c : Dev nD) :
    V m c main_v0 = shapeCast S65536x128 (m ((c : Thread nD τ).loc main_arg0)) shapeCasts_S512x128x128_S65536x128 := by
  dsimp only [Gen.V, Gen.V0]
  simp only [hostOps0, hostOps0_1, hostOps0_2, List.flatten_cons, List.flatten_nil, List.append_nil, List.cons_append, List.nil_append]
  after_results_simp
  rfl

set_option maxHeartbeats 2000000 in
/-- The region's second input array is the expansion matrix of the argument w. -/
theorem V_main_v12 (c : Dev nD) : V m c main_v12 = expansion (m ((c : Thread nD τ).loc main_arg1)) := by
  dsimp only [Gen.V, Gen.V0]
  simp only [hostOps0, hostOps0_1, hostOps0_2, List.flatten_cons, List.flatten_nil, List.append_nil, List.cons_append, List.nil_append]
  after_results_simp
  simp only [TRef.ofBuf, TRef.toBuf, cast_eq]
  rfl

end Entry

/-! ## The expansion matrix, entry by entry -/

/-- Column j's channel is the word j / 32. -/
theorem chanOfCol_apply (j : Fin 4096) : chanOfCol (ix1 j) = BitVec.ofNat 32 (j.val / 32) :=
  (show chanOfCol (ix1 j) = Cert.Lib.FloorDiv.floorDiv (BitVec.ofNat 32 j.val) 32#32 from rfl).trans
    (Cert.Lib.FloorDiv.floorDiv_32 j)

/-- The comparison bit at (k, j), as a number, is 1 when k = j / 32 and 0 otherwise. -/
theorem hitBit_apply (k : Fin 128) (j : Fin 4096) :
    (hitBit (ix2 k j)).toNat = if k.val = j.val / 32 then 1 else 0 := by
  have hq : j.val / 32 < 128 := by have := j.isLt; omega
  have hrow : broadcastInDim S128x4096 ![0, 1] bcast_S128x1_S128x4096_0_1
      (broadcastInDim S128x1 ![0] bcast_S128_S128x1_0 (iotaInDim S128 32 0)) (ix2 k j) = BitVec.ofNat 32 k.val := by
    rw [broadcastInDim_apply _ bcast_S128x1_S128x4096_0_1 _ (ix2 k j) (ix2 k (0 : Fin 1)) (fun a => match a with
      | ⟨0, _⟩ => by show k.val = if (128 : Nat) = 1 then 0 else k.val; rw [if_neg (by decide)]
      | ⟨1, _⟩ => by show 0 = if (1 : Nat) = 1 then 0 else j.val; rw [if_pos rfl])]
    rw [broadcastInDim_apply _ bcast_S128_S128x1_0 _ (ix2 k (0 : Fin 1)) (ix1 k) (fun a => match a with
      | ⟨0, _⟩ => by show k.val = if (128 : Nat) = 1 then 0 else k.val; rw [if_neg (by decide)])]
    rfl
  have hcol : broadcastInDim S128x4096 ![0, 1] bcast_S1x4096_S128x4096_0_1
      (broadcastInDim S1x4096 ![1] bcast_S4096_S1x4096_1 chanOfCol) (ix2 k j) = BitVec.ofNat 32 (j.val / 32) := by
    rw [broadcastInDim_apply _ bcast_S1x4096_S128x4096_0_1 _ (ix2 k j) (ix2 (0 : Fin 1) j) (fun a => match a with
      | ⟨0, _⟩ => by show 0 = if (1 : Nat) = 1 then 0 else k.val; rw [if_pos rfl]
      | ⟨1, _⟩ => by show j.val = if (4096 : Nat) = 1 then 0 else j.val; rw [if_neg (by decide)])]
    rw [broadcastInDim_apply _ bcast_S4096_S1x4096_1 _ (ix2 (0 : Fin 1) j) (ix1 j) (fun a => match a with
      | ⟨0, _⟩ => by show j.val = if (4096 : Nat) = 1 then 0 else j.val; rw [if_neg (by decide)])]
    exact chanOfCol_apply j
  show (IntOp.cmpi .eq _ _).toNat = _
  rw [hrow, hcol]
  have h := Cert.Lib.FloorDiv.cmp_eq_toNat k ⟨j.val / 32, hq⟩
  rw [h]
  by_cases e : k.val = j.val / 32
  · rw [if_pos e, if_pos (Fin.ext e)]
  · rw [if_neg e, if_neg (fun e' => e (congrArg Fin.val e'))]

/-- On the extended reals the expansion matrix at (k, j) is w (0, j) when k is column j's channel and 0 · w (0, j) otherwise. -/
theorem expansion_apply (w : FVec Ideal S1x4096 .f32) (k : Fin 128) (j : Fin 4096) :
    expansion w (ix2 k j) = (if k = Cert.Spec.chan j then (1 : EReal) else 0) * w (ix2 (0 : Fin 1) j) := by
  have hw : broadcastInDim S128x4096 ![0, 1] bcast_S1x4096_S128x4096_0_1 w (ix2 k j) = w (ix2 (0 : Fin 1) j) :=
    broadcastInDim_apply _ bcast_S1x4096_S128x4096_0_1 w (ix2 k j) (ix2 (0 : Fin 1) j) (fun a => match a with
      | ⟨0, _⟩ => by show 0 = if (1 : Nat) = 1 then 0 else k.val; rw [if_pos rfl]
      | ⟨1, _⟩ => by show j.val = if (4096 : Nat) = 1 then 0 else j.val; rw [if_neg (by decide)])
  show (((hitBit (ix2 k j)).toNat : ℝ) : EReal) * broadcastInDim S128x4096 ![0, 1] bcast_S1x4096_S128x4096_0_1 w (ix2 k j) = _
  rw [hw, hitBit_apply k j]
  by_cases e : k.val = j.val / 32
  · rw [if_pos e, if_pos (Fin.ext e)]; norm_num
  · rw [if_neg e, if_neg (fun e' => e (congrArg Fin.val e'))]; norm_num

end Cert.KernelIdeal.HostPrefix

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.OneHotSum.lean ====
/-
  A sum against a one-hot column, on the extended reals.

  Fix a position q among K. A column whose entry at k is v when k = q and 0 otherwise, written as the product
  (1 or 0) · v, picks out of any row x the single term x q · v: every other term is x k · (0 · v) = x k · 0 = 0.
  Zero annihilates every extended real, the infinities included, so no finiteness of x or v is used.
-/
import Idealize.ShloMosaic.PureOps.Ideal.Laws

noncomputable section

open scoped BigOperators

namespace Cert.Lib.OneHotSum

/-- The sum of x k · (δ k q · v) over k is x q · v. -/
theorem sum_onehot {K : Nat} (x : Fin K → EReal) (v : EReal) (q : Fin K) :
    ∑ k : Fin K, x k * ((if k = q then (1 : EReal) else 0) * v) = x q * v := by
  rw [Finset.sum_eq_single q]
  · rw [if_pos rfl, one_mul]
  · intro k _ hk
    rw [if_neg hk, zero_mul, mul_zero]
  · intro h
    exact absurd (Finset.mem_univ q) h

end Cert.Lib.OneHotSum

end
-- ==== Proof.KernelValue.lean ====
/-
  What the kernel program leaves in its result.

  The region multiplies the flattened argument X : [65536, 128] (row n = 128 b + t is x (b, t, ·)) by the expansion
  matrix E : [128, 4096], 512 rows at a time: grid point p takes rows 512 p … 512 p + 511 of X, all of E, and writes
  rows 512 p … 512 p + 511 of the product. On the extended reals entry (n, j) of a product into a zero accumulator
  is the sum over k of X (n, k) · E (k, j); with E (k, j) = (1 if k = j / 32 else 0) · w (0, j) every term but
  k = j / 32 vanishes, so the region's array ends at
      F (n, j) = X (n, j / 32) · w (0, j).
  The 128 points' row blocks tile the 65536 rows, so that is the whole array. The host then reshapes
  [65536, 4096] to [512, 128, 4096], which reads row 128 b + t at (b, t): the result is
      y (b, t, j) = x (b, t, j / 32) · w (0, j).
-/
import proofs.«175144_j54709293416679_1_alg».proof.Proof.Gen.KernelIdeal.Frame
import proofs.«175144_j54709293416679_1_alg».proof.Proof.HostPrefix
import proofs.«175144_j54709293416679_1_alg».proof.Proof.LibPlainDot
import proofs.«175144_j54709293416679_1_alg».proof.Proof.OneHotSum
import proofs.«175144_j54709293416679_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat Cfg Window)
open Cert.Spec (chan)

/-! ## One point's product -/

/-- The body's product contracts the left operand's columns with the right operand's rows and has no batch axes. -/
theorem plain : Cert.Lib.PlainDot.Plain dot_S512x128_S128x4096_S512x4096_1_0_0_1_n_n := ⟨rfl, rfl, rfl, rfl, rfl, rfl⟩

/-- What the body stores, at (r, j): the sum over k of the row block's (r, k) times the matrix's (k, j). The changes
    of format and the shape casts to the same shape are identities. -/
theorem pay_apply (x0 : Vec Ideal S512x128 .f32) (x1 : Vec Ideal S128x4096 .bf16) (r : Fin 512) (j : Fin 4096) :
    k0_pay1 x0 x1 (ix2 r j) = ∑ k : Fin 128, x0 (ix2 r k) * x1 (ix2 k j) := by
  unfold k0_pay1
  simp only [shapeCast_self]
  exact Cert.Lib.PlainDot.matmul_zero_apply plain (φ₁ := .bf16) (φ₂ := .bf16) none _ _ (ix2 r j)

/-- The region's array as a function of the flattened x and of w: F (n, j) = X (n, j / 32) · w (0, j). -/
def flat (xf : S65536x128.Idx → EReal) (w : S1x4096.Idx → EReal) : S65536x4096.Idx → EReal :=
  fun i => xf (ix2 (⟨(i 0).val, (i 0).isLt⟩ : Fin 65536) (chan ⟨(i 1).val, (i 1).isLt⟩))
    * w (ix2 (0 : Fin 1) (⟨(i 1).val, (i 1).isLt⟩ : Fin 4096))

theorem flat_apply (xf : S65536x128.Idx → EReal) (w : S1x4096.Idx → EReal) (n : Fin 65536) (j : Fin 4096) :
    flat xf w (ix2 n j) = xf (ix2 n (chan j)) * w (ix2 (0 : Fin 1) j) := rfl

/-- One entry of one point's store. If the row block's row (y 0) is row n of X, and the matrix block's column (y 1)
    is the expansion column of w, then the stored entry y is F at the array index i = (n, y 1): the one-hot column
    leaves the single term k = (y 1) / 32 of the sum. -/
theorem point_entry (x0 : Vec Ideal S512x128 .f32) (x1 : Vec Ideal S128x4096 .bf16)
    (xf : S65536x128.Idx → EReal) (w : S1x4096.Idx → EReal) (y : S512x4096.Idx) (i : S65536x4096.Idx) (n : Fin 65536)
    (hn : (i 0).val = n.val) (hj : (i 1).val = (y 1).val)
    (h0 : ∀ k : Fin 128, x0 (ix2 (⟨(y 0).val, (y 0).isLt⟩ : Fin 512) k) = xf (ix2 n k))
    (h1 : ∀ k : Fin 128, x1 (ix2 k (⟨(y 1).val, (y 1).isLt⟩ : Fin 4096))
      = (if k = chan ⟨(y 1).val, (y 1).isLt⟩ then (1 : EReal) else 0) * w (ix2 (0 : Fin 1) (⟨(y 1).val, (y 1).isLt⟩ : Fin 4096))) :
    k0_pay1 x0 x1 y = flat xf w i := by
  have ey : y = ix2 (⟨(y 0).val, (y 0).isLt⟩ : Fin 512) (⟨(y 1).val, (y 1).isLt⟩ : Fin 4096) := eq_ix2 y
  have ei : i = ix2 n (⟨(y 1).val, (y 1).isLt⟩ : Fin 4096) := by
    funext a
    match a with
    | ⟨0, _⟩ => exact Fin.ext hn
    | ⟨1, _⟩ => exact Fin.ext hj
  rw [ei, flat_apply, ey, pay_apply]
  have e : ∀ k : Fin 128, x0 (ix2 (⟨(y 0).val, (y 0).isLt⟩ : Fin 512) k) * x1 (ix2 k (⟨(y 1).val, (y 1).isLt⟩ : Fin 4096))
      = xf (ix2 n k) * ((if k = chan ⟨(y 1).val, (y 1).isLt⟩ then (1 : EReal) else 0) * w (ix2 (0 : Fin 1) (⟨(y 1).val, (y 1).isLt⟩ : Fin 4096))) :=
    fun k => by rw [h0 k, h1 k]
  rw [Finset.sum_congr rfl (fun k _ => e k)]
  exact Cert.Lib.OneHotSum.sum_onehot (fun k => xf (ix2 n k)) (w (ix2 (0 : Fin 1) (⟨(y 1).val, (y 1).isLt⟩ : Fin 4096))) (chan ⟨(y 1).val, (y 1).isLt⟩)

/-! ## The blocks -/

/-- The printed index maps over the grid: at point t the row blocks of the first input and of the output are block t
    of the rows, and the matrix's block is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

theorem hz : (![0, 0] : Fin 2 → Nat) = fun _ => 0 := funext fun a => by fin_cases a <;> rfl

section Run

variable (m : (ℓ : Loc nD τ sig) → Buf (Elt Ideal) ℓ) (ρ : Dev nD → PrngReg)

/-- What point t writes back is block t of F of the flattened x and of w. -/
theorem flushed_eq (c : Dev nD) (t : Fin cfg0.N) :
    (dats m 0 c).flushed 2 t
      = ((cfg0.win 2).blk t).view.read (Elt Ideal) (flat (V m c main_v0) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S512x128) hz, View.ld_unit_zero (S := S128x4096) hz]
  obtain ⟨e00, e01, e10, e11, e20, e21⟩ := idx_facts t
  have hN : cfg0.N = 128 := N_0
  have ht : t.val < 128 := by have h := t.isLt; omega
  funext y
  have hy0 : (y 0).val < 512 := (y 0).isLt
  have hy1 : (y 1).val < 4096 := (y 1).isLt
  refine point_entry (iblk m c 0 t) (iblk m c 1 t) (V m c main_v0) (m ((c : Thread nD τ).loc main_arg1)) y
    (((cfg0.win 2).blk t).view.emb y) ⟨t.val * 512 + (y 0).val, by omega⟩ ?_ ?_ ?_ ?_
  · show win0_2.index t (0 : Fin 2) * 512 + 1 * (y 0).val = t.val * 512 + (y 0).val
    omega
  · show win0_2.index t (1 : Fin 2) * 4096 + 1 * (y 1).val = (y 1).val
    omega
  · intro k
    show V m c main_v0 (((cfg0.win 0).blk t).view.emb (ix2 (⟨(y 0).val, (y 0).isLt⟩ : Fin 512) k)) = V m c main_v0 _
    refine congrArg (V m c main_v0) (funext fun a => Fin.ext ?_)
    match a with
    | ⟨0, _⟩ => show win0_0.index t (0 : Fin 2) * 512 + 1 * (y 0).val = t.val * 512 + (y 0).val; omega
    | ⟨1, _⟩ => show win0_0.index t (1 : Fin 2) * 128 + 1 * k.val = k.val; omega
  · intro k
    have e : ((cfg0.win 1).blk t).view.emb (ix2 k (⟨(y 1).val, (y 1).isLt⟩ : Fin 4096)) = ix2 k (⟨(y 1).val, (y 1).isLt⟩ : Fin 4096) :=
      funext fun a => Fin.ext (by
        match a with
        | ⟨0, _⟩ => show win0_1.index t (0 : Fin 2) * 128 + 1 * k.val = k.val; omega
        | ⟨1, _⟩ => show win0_1.index t (1 : Fin 2) * 4096 + 1 * (y 1).val = (y 1).val; omega)
    show V m c main_v12 (((cfg0.win 1).blk t).view.emb (ix2 k (⟨(y 1).val, (y 1).isLt⟩ : Fin 4096))) = _
    rw [e]
    exact (congrFun (HostPrefix.V_main_v12 m c) _).trans (HostPrefix.expansion_apply _ k _)

/-- An index of the region's array is in point t's block iff each coordinate is in the block's range. -/
theorem mem_blk (t : Fin cfg0.N) (i : S65536x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v13).slice (win0_2.rect t)).set ↔ _
  rw [View.set_slice_whole, Rect.mem_set_unit]
  exact Iff.rfl

/-- Every index of the region's array is in some point's block: row n is in block n / 512. -/
theorem cover (i : S65536x4096.Idx) :
    ∃ t : Fin cfg0.N, (cfg0.win 2).flush t = true ∧ i ∈ ((cfg0.win 2).blk t).view.set := by
  have hi0 : (i 0).val < 65536 := (i 0).isLt
  have hi1 : (i 1).val < 4096 := (i 1).isLt
  have hN128 : cfg0.N = 128 := N_0
  have hN : (i 0).val / 512 < cfg0.N := by omega
  obtain ⟨e00, e01, e10, e11, e20, e21⟩ := idx_facts ⟨(i 0).val / 512, hN⟩
  refine ⟨⟨(i 0).val / 512, hN⟩, flush0_2 _, ?_⟩
  rw [mem_blk]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    have : (⟨(i 0).val / 512, hN⟩ : Fin cfg0.N).val = (i 0).val / 512 := rfl
    omega
  | ⟨1, _⟩ =>
    show win0_2.index ⟨(i 0).val / 512, hN⟩ (1 : Fin 2) * 4096 ≤ (i 1).val ∧ (i 1).val < win0_2.index ⟨(i 0).val / 512, hN⟩ (1 : Fin 2) * 4096 + 4096
    omega

/-- The region's array after the run is F of the flattened x and of w. -/
theorem final (c : Dev nD) :
    (dats m 0 c).arrAt 2 cfg0.N = flat (V m c main_v0) (m ((c : Thread nD τ).loc main_arg1)) :=
  (dats m 0 c).arrAt_eq_of_cover 2 _ (fun t _ => flushed_eq m c t) cover

/-! ## The reshapes around the region, and the program's result -/

/-- Row n = 128 b + t of the flattened x is x (b, t, ·). -/
theorem xflat_apply (c : Dev nD) (b : Fin 512) (t : Fin 128) (k : Fin 128) (n : Fin 65536) (hn : n.val = b.val * 128 + t.val) :
    V m c main_v0 (ix2 n k) = m ((c : Thread nD τ).loc main_arg0) (ix3 b t k) :=
  (congrFun (HostPrefix.V_main_v0 m c) (ix2 n k)).trans
    (shapeCast_apply _ shapeCasts_S512x128x128_S65536x128 (ix2 n k) (ix3 b t k)
      (by rewrite [Shape.rowMajor_val_three, Shape.rowMajor_val_two]
          show (b.val * 128 + t.val) * 128 + k.val = n.val * 128 + k.val
          rw [hn]))

/-- The program's result: the region's array reshaped to [512, 128, 4096] is G of the arguments. -/
theorem result_eq (c : Dev nD) :
    Pipeline.afterTail₀ cfgs (dats m) 0 (V0 m) [hostOps1] c main_v14
      = Cert.Spec.G (m ((c : Thread nD τ).loc main_arg0)) (m ((c : Thread nD τ).loc main_arg1)) := by
  unfold Pipeline.afterTail₀
  show StableHlo.after hostOps1 _ (Proc.devRef .tc main_v14) = _
  after_results
  rw [Pipeline.withArrays_arr spec0 launch0.win.arr_inj c _ _ 2, final m c]
  funext i
  obtain ⟨b, t, j, rfl⟩ : ∃ (b : Fin 512) (t : Fin 128) (j : Fin 4096), i = ix3 b t j := ⟨i 0, i 1, i 2, eq_ix3 i⟩
  have hb := b.isLt
  have ht := t.isLt
  show shapeCast S512x128x4096 (flat (V m c main_v0) (m ((c : Thread nD τ).loc main_arg1))) shapeCasts_S65536x4096_S512x128x4096 (ix3 b t j) = _
  rw [shapeCast_apply _ shapeCasts_S65536x4096_S512x128x4096 (ix3 b t j) (ix2 (⟨b.val * 128 + t.val, by omega⟩ : Fin 65536) j)
    (by rewrite [Shape.rowMajor_val_two, Shape.rowMajor_val_three]; rfl)]
  rw [flat_apply, Cert.Spec.G_apply, xflat_apply m c b t (chan j) _ rfl]

/-- Every weakly fair execution of the program ends with its result at G of the arguments and the arguments unchanged. -/
theorem run : θ_run defs (onTc (τ := τ) (main (F := Ideal))) ⟨m, fun _ => 0, ρ⟩ fun r => ∀ c : Dev nD,
      r.2.mem ((c.tc : Thread nD τ).loc main_v14) = Cert.Spec.G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v14 (Pipeline.mem_restRefs_of main_v14 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Run

end Cert.KernelIdeal.KValue

end
-- ==== Proof.RefValue.lean ====
/-
  The reference computes G.

  The reference reshapes w to [128, 32], broadcasts x (b, t, c) and w (c, s) to [512, 128, 128, 32], multiplies, and
  reshapes to [512, 128, 4096]. Read at (b, t, j): the last reshape sends j to (c, s) = (j / 32, j mod 32), the
  product there is x (b, t, j / 32) · w (c, s), and the first reshape reads w (c, s) at column 32 c + s = j.
-/
import proofs.«175144_j54709293416679_1_alg».proof.Proof.Gen.ReferenceIdeal.Read
import proofs.«175144_j54709293416679_1_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- Where the reference reads x for the result's entry (b, t, j): at (b, t, j / 32). -/
theorem x_index (b : Fin 512) (t : Fin 128) (j : Fin 4096) :
    idx_main_v1 (idx_main_v3 (idx_main_v6 (ix3 b t j))) = ix3 b t (Cert.Spec.chan j) := by
  have hb := b.isLt; have ht := t.isLt; have hj := j.isLt
  funext a; apply Fin.ext
  match a with
  | ⟨0, _⟩ => show ((b.val * 128 + t.val) * 4096 + j.val) / 524288 = b.val; omega
  | ⟨1, _⟩ => show ((b.val * 128 + t.val) * 4096 + j.val) / 4096 % 128 = t.val; omega
  | ⟨2, _⟩ => show ((b.val * 128 + t.val) * 4096 + j.val) / 32 % 128 = j.val / 32; omega

/-- Where the reference reads w for the result's entry (b, t, j): at (0, j). -/
theorem w_index (b : Fin 512) (t : Fin 128) (j : Fin 4096) :
    idx_main_v0 (idx_main_v2 (idx_main_v4 (idx_main_v6 (ix3 b t j)))) = ix2 (0 : Fin 1) j := by
  have hb := b.isLt; have ht := t.isLt; have hj := j.isLt
  funext a; apply Fin.ext
  match a with
  | ⟨0, _⟩ => rfl
  | ⟨1, _⟩ =>
    show ((((b.val * 128 + t.val) * 4096 + j.val) / 32 % 128) * 32 + ((b.val * 128 + t.val) * 4096 + j.val) % 32) % 4096 = j.val
    omega

/-- The reference's last stage, on the extended reals, is G of the arguments. -/
theorem ref_is_G (x : (⟨S512x128x128, .f32⟩ : BufTy).Contents (Elt Ideal)) (w : (⟨S1x4096, .f32⟩ : BufTy).Contents (Elt Ideal)) :
    val_main_v6 (F := Ideal) x w = Cert.Spec.G x w := by
  funext i
  obtain ⟨b, t, j, rfl⟩ : ∃ (b : Fin 512) (t : Fin 128) (j : Fin 4096), i = ix3 b t j := ⟨i 0, i 1, i 2, eq_ix3 i⟩
  rw [Cert.Spec.G_apply, val_main_v6_apply, val_main_v5_apply, val_main_v3_apply, val_main_v1_apply, val_main_v4_apply,
    val_main_v2_apply, val_main_v0_apply, x_index, w_index]
  rfl

end Cert.ReferenceIdeal.RefValue

end
-- ==== Proof.lean ====
/-
  y (b, t, j) = x (b, t, j / 32) · w (0, j), computed two ways.

  The kernel program flattens x to X : [65536, 128], builds on the host the expansion matrix
  E (k, j) = (1 if k = j / 32 else 0) · w (0, j) of shape [128, 4096], multiplies X by E 512 rows at a time into a
  zero accumulator, and reshapes the [65536, 4096] product to [512, 128, 4096]. The reference multiplies
  x (b, t, c) by w reshaped to (c, s) and flattens (c, s) to j = 32 c + s.

  On the extended reals the product's entry (n, j) is the sum over k of X (n, k) · E (k, j). Every term with
  k ≠ j / 32 is X (n, k) · (0 · w (0, j)) = 0, because zero annihilates every extended real; the remaining term is
  X (n, j / 32) · (1 · w (0, j)). So both programs end at the same function G of the arguments, and no finiteness of
  the inputs is used. The changes of float format are identities at this instance.

  The three programs' runs and unchanged arguments: the two kernel programs' by the frame of the launch around the
  region; the reference's by its run. Nothing was rewritten when the kernel was idealized, so there is nothing to
  preserve.
-/
import proofs.«175144_j54709293416679_1_alg».proof.Defs
import proofs.«175144_j54709293416679_1_alg».proof.Proof.Gen.Kernel
import proofs.«175144_j54709293416679_1_alg».proof.Proof.Gen.Kernel.Skeleton
import proofs.«175144_j54709293416679_1_alg».proof.Proof.Gen.Kernel.Launch
import proofs.«175144_j54709293416679_1_alg».proof.Proof.Gen.Kernel.Points
import proofs.«175144_j54709293416679_1_alg».proof.Proof.Gen.Kernel.Frame
import proofs.«175144_j54709293416679_1_alg».proof.Proof.Gen.KernelIdeal
import proofs.«175144_j54709293416679_1_alg».proof.Proof.Gen.KernelIdeal.Skeleton
import proofs.«175144_j54709293416679_1_alg».proof.Proof.Gen.KernelIdeal.Launch
import proofs.«175144_j54709293416679_1_alg».proof.Proof.Gen.KernelIdeal.Points
import proofs.«175144_j54709293416679_1_alg».proof.Proof.Gen.KernelIdeal.Frame
import proofs.«175144_j54709293416679_1_alg».proof.Proof.Gen.ReferenceIdeal
import proofs.«175144_j54709293416679_1_alg».proof.Proof.Gen.ReferenceIdeal.Run
import proofs.«175144_j54709293416679_1_alg».proof.Proof.Gen.ReferenceIdeal.Read
import proofs.«175144_j54709293416679_1_alg».proof.Proof.Gen.Pre_finite_inputs
import proofs.«175144_j54709293416679_1_alg».proof.Proof.KernelValue
import proofs.«175144_j54709293416679_1_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and w, both programs end at G of x and w. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
